-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x2048 : Shape := ⟨3, ![8, 256, 2048]⟩
abbrev S8x2048x8192 : Shape := ⟨3, ![8, 2048, 8192]⟩
abbrev S_ : Shape := ⟨0, ![]⟩

class Facts : Prop where
  bcast_S_S8x256x2048 : S_.BroadcastsInDim S8x256x2048 (![] : Fin 0 → Fin S8x256x2048.rank)
  reducesTo_S8x256x2048_S_d0_1_2 : S8x256x2048.ReducesTo [0, 1, 2] S_
  h_S_ : 0 < S_.numel
  bcast_S_S8x2048x8192 : S_.BroadcastsInDim S8x2048x8192 (![] : Fin 0 → Fin S8x2048x8192.rank)
  reducesTo_S8x2048x8192_S_d0_1_2 : S8x2048x8192.ReducesTo [0, 1, 2] S_

variable [Facts]

def fn_part1 {F : FTy → Type} [FloatOps F] (main_v13 : IVec S_ 1) (main_v16 : IVec S8x2048x8192 1) : IVec S_ 1 :=
  let main_c_5 : IVec S_ 1 := constantI S_ 1 1#1
  let main_v17 : IVec S_ 1 := (fun x v => Host.reduce IntOp.andi x v reducesTo_S8x2048x8192_S_d0_1_2 h_S_) main_v16 main_c_5
  let main_v18 : IVec S_ 1 := andi main_v13 main_v17
  main_v18

def fn {F : FTy → Type} [FloatOps F] (main_arg0 : FVec F S8x256x2048 .f32) (main_arg1 : FVec F S8x2048x8192 .f32) (main_arg2 : FVec F S8x2048x8192 .f32) (main_arg3 : FVec F S8x2048x8192 .f32) : IVec S_ 1 :=
  let main_v0 : FVec F S8x256x2048 .f32 := Host.absf main_arg0
  let main_cst : FVec F S_ .f32 := constant S_ .f32 0x7F800000#32
  let main_v1 : FVec F S8x256x2048 .f32 := broadcastInDim S8x256x2048 ![] bcast_S_S8x256x2048 main_cst
  let main_v2 : IVec S8x256x2048 1 := cmpf .olt main_v0 main_v1
  let main_c : IVec S_ 1 := constantI S_ 1 1#1
  let main_v3 : IVec S_ 1 := (fun x v => Host.reduce IntOp.andi x v reducesTo_S8x256x2048_S_d0_1_2 h_S_) main_v2 main_c
  let main_v4 : FVec F S8x2048x8192 .f32 := Host.absf main_arg1
  let main_cst_0 : FVec F S_ .f32 := constant S_ .f32 0x7F800000#32
  let main_v5 : FVec F S8x2048x8192 .f32 := broadcastInDim S8x2048x8192 ![] bcast_S_S8x2048x8192 main_cst_0
  let main_v6 : IVec S8x2048x8192 1 := cmpf .olt main_v4 main_v5
  let main_c_1 : IVec S_ 1 := constantI S_ 1 1#1
  let main_v7 : IVec S_ 1 := (fun x v => Host.reduce IntOp.andi x v reducesTo_S8x2048x8192_S_d0_1_2 h_S_) main_v6 main_c_1
  let main_v8 : IVec S_ 1 := andi main_v3 main_v7
  let main_v9 : FVec F S8x2048x8192 .f32 := Host.absf main_arg2
  let main_cst_2 : FVec F S_ .f32 := constant S_ .f32 0x7F800000#32
  let main_v10 : FVec F S8x2048x8192 .f32 := broadcastInDim S8x2048x8192 ![] bcast_S_S8x2048x8192 main_cst_2
  let main_v11 : IVec S8x2048x8192 1 := cmpf .olt main_v9 main_v10
  let main_c_3 : IVec S_ 1 := constantI S_ 1 1#1
  let main_v12 : IVec S_ 1 := (fun x v => Host.reduce IntOp.andi x v reducesTo_S8x2048x8192_S_d0_1_2 h_S_) main_v11 main_c_3
  let main_v13 : IVec S_ 1 := andi main_v8 main_v12
  let main_v14 : FVec F S8x2048x8192 .f32 := Host.absf main_arg3
  let main_cst_4 : FVec F S_ .f32 := constant S_ .f32 0x7F800000#32
  let main_v15 : FVec F S8x2048x8192 .f32 := broadcastInDim S8x2048x8192 ![] bcast_S_S8x2048x8192 main_cst_4
  let main_v16 : IVec S8x2048x8192 1 := cmpf .olt main_v14 main_v15
  fn_part1 (F := F) main_v13 main_v16
-- ==== Kernel.lean ====
abbrev S8x256x2048 : Shape := ⟨3, ![8, 256, 2048]⟩
abbrev S8x2048x8192 : Shape := ⟨3, ![8, 2048, 8192]⟩
abbrev S1x256x2048 : Shape := ⟨3, ![1, 256, 2048]⟩
abbrev S1x2048x256 : Shape := ⟨3, ![1, 2048, 256]⟩
abbrev S256x2048 : Shape := ⟨2, ![256, 2048]⟩
abbrev S2048x256 : Shape := ⟨2, ![2048, 256]⟩
abbrev S256x256 : Shape := ⟨2, ![256, 256]⟩

abbrev nBuf : Space → Nat
  | .hbm => 5
  | .vmem => 10
  | .smem => 0
  | _ => 0

abbrev bufTy : (tb : Table) → Fin (tcTables nBuf tb) → BufTy
  | .hbm, ⟨0, _⟩ => ⟨S8x256x2048, .f32⟩
  | .hbm, ⟨1, _⟩ => ⟨S8x2048x8192, .f32⟩
  | .hbm, ⟨2, _⟩ => ⟨S8x2048x8192, .f32⟩
  | .hbm, ⟨3, _⟩ => ⟨S8x2048x8192, .f32⟩
  | .hbm, ⟨4, _⟩ => ⟨S8x256x2048, .f32⟩
  | .local _ .vmem, ⟨0, _⟩ => ⟨S1x256x2048, .f32⟩
  | .local _ .vmem, ⟨1, _⟩ => ⟨S1x2048x256, .f32⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x2048x256, .f32⟩
  | .local _ .vmem, ⟨7, _⟩ => ⟨S1x256x2048, .f32⟩
  | .local _ .vmem, ⟨8, _⟩ => ⟨S1x256x2048, .f32⟩
  | .local _ .vmem, ⟨9, _⟩ => ⟨S256x2048, .f32⟩
  | _, _ => ⟨S8x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 32], ![false, false]⟩

def k0_cond2 (i : grid0.Coords) : BitVec 1 :=
  let arg1 : BitVec 32 := BitVec.ofNat 32 (i 1).val
  let c31_i32 : BitVec 32 := 31#32
  let v27 : BitVec 1 := Scalar.cmpi .eq arg1 c31_i32
  let v28 : BitVec 32 := Scalar.extui v27
  let c0_i32_18 : BitVec 32 := 0#32
  let v29 : BitVec 1 := Scalar.cmpi .ne v28 c0_i32_18
  v29

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  bitsLt_bf16_f32 : FTy.bits .bf16 < FTy.bits .f32
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  shapeCasts_S256x2048_S1x256x2048 : S256x2048.ShapeCasts S1x256x2048
  dot_S256x2048_S2048x256_S256x256_1_0_0_1_n_n_wf : DotDims.WF S256x2048 S2048x256 S256x256 [1] [0] [0] [1] [] []
  dot_S256x256_S2048x256_S256x2048_1_1_0_0_n_n_wf : DotDims.WF S256x256 S2048x256 S256x2048 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S8x256x2048.size a
  hwx0_0 : ∀ i : grid0.Coords, EltTy.bits .f32 = 32 ∨ (Rect.block (s := S8x256x2048) S1x256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x256.size a ≤ S8x2048x8192.size a
  hwx0_1 : ∀ i : grid0.Coords, EltTy.bits .f32 = 32 ∨ (Rect.block (s := S8x2048x8192) S1x2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x256.size a ≤ S8x2048x8192.size a
  hwx0_2 : ∀ i : grid0.Coords, EltTy.bits .f32 = 32 ∨ (Rect.block (s := S8x2048x8192) S1x2048x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x256.size a ≤ S8x2048x8192.size a
  hwx0_3 : ∀ i : grid0.Coords, EltTy.bits .f32 = 32 ∨ (Rect.block (s := S8x2048x8192) S1x2048x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x2048.size a ≤ S8x256x2048.size a
  hwx0_4 : ∀ i : grid0.Coords, EltTy.bits .f32 = 32 ∨ (Rect.block (s := S8x256x2048) S1x256x2048.size (cc0_transform_4 i) (hinb0_4 i)).WholeWords (EltTy.packing .f32)

variable [Facts₀]

def dot_S256x2048_S2048x256_S256x256_1_0_0_1_n_n : DotDims S256x2048 S2048x256 S256x256 where
  lhsContracting := [1]
  rhsContracting := [0]
  lhsNonContracting := [0]
  rhsNonContracting := [1]
  lhsBatch := []
  rhsBatch := []
  wf := dot_S256x2048_S2048x256_S256x256_1_0_0_1_n_n_wf
def dot_S256x256_S2048x256_S256x2048_1_1_0_0_n_n : DotDims S256x256 S2048x256 S256x2048 where
  lhsContracting := [1]
  rhsContracting := [1]
  lhsNonContracting := [0]
  rhsNonContracting := [0]
  lhsBatch := []
  rhsBatch := []
  wf := dot_S256x256_S2048x256_S256x2048_1_1_0_0_n_n_wf

abbrev win0_0 : Pipeline.Window sig grid0 :=
  Pipeline.Window.ofSpec (Memref.whole main_arg0) S1x256x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x2048x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x256x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8x256x2048 : Shape := ⟨3, ![8, 256, 2048]⟩
abbrev S8x2048x8192 : Shape := ⟨3, ![8, 2048, 8192]⟩
abbrev S8x256x8192 : Shape := ⟨3, ![8, 256, 8192]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8x256x2048, .f32⟩
  | .hbm, ⟨1, _⟩ => ⟨S8x2048x8192, .f32⟩
  | .hbm, ⟨2, _⟩ => ⟨S8x2048x8192, .f32⟩
  | .hbm, ⟨3, _⟩ => ⟨S8x2048x8192, .f32⟩
  | .hbm, ⟨4, _⟩ => ⟨S8x256x8192, .f32⟩
  | .hbm, ⟨5, _⟩ => ⟨S8x256x8192, .f32⟩
  | .hbm, ⟨6, _⟩ => ⟨S8x256x8192, .f32⟩
  | .hbm, ⟨7, _⟩ => ⟨S8x256x8192, .f32⟩
  | .hbm, ⟨8, _⟩ => ⟨S_, .f32⟩
  | .hbm, ⟨9, _⟩ => ⟨S8x256x8192, .f32⟩
  | .hbm, ⟨10, _⟩ => ⟨S8x256x8192, .f32⟩
  | .hbm, ⟨11, _⟩ => ⟨S_, .f32⟩
  | .hbm, ⟨12, _⟩ => ⟨S8x256x8192, .f32⟩
  | .hbm, ⟨13, _⟩ => ⟨S8x256x8192, .f32⟩
  | .hbm, ⟨14, _⟩ => ⟨S8x256x8192, .f32⟩
  | .hbm, ⟨15, _⟩ => ⟨S8x256x8192, .f32⟩
  | .hbm, ⟨16, _⟩ => ⟨S8x256x2048, .f32⟩
  | _, _ => ⟨S8x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩

abbrev nD : Nat := 1
abbrev τ : Topo := Topo.v7x

variable {F : FTy → Type} [FloatOps F]

class Facts₀ : Prop where
  bcast_S_S8x256x8192 : S_.BroadcastsInDim S8x256x8192 (![] : Fin 0 → Fin S8x256x8192.rank)
  dot_S8x256x2048_S8x2048x8192_S8x256x8192_2_1_1_2_0_0_wf : DotDims.WF S8x256x2048 S8x2048x8192 S8x256x8192 [2] [1] [1] [2] [0] [0]
  dot_S8x256x8192_S8x2048x8192_S8x256x2048_2_2_1_1_0_0_wf : DotDims.WF S8x256x8192 S8x2048x8192 S8x256x2048 [2] [2] [1] [1] [0] [0]

variable [Facts₀]

def dot_S8x256x2048_S8x2048x8192_S8x256x8192_2_1_1_2_0_0 : DotDims S8x256x2048 S8x2048x8192 S8x256x8192 where
  lhsContracting := [2]
  rhsContracting := [1]
  lhsNonContracting := [1]
  rhsNonContracting := [2]
  lhsBatch := [0]
  rhsBatch := [0]
  wf := dot_S8x256x2048_S8x2048x8192_S8x256x8192_2_1_1_2_0_0_wf
def dot_S8x256x8192_S8x2048x8192_S8x256x2048_2_2_1_1_0_0 : DotDims S8x256x8192 S8x2048x8192 S8x256x2048 where
  lhsContracting := [2]
  rhsContracting := [2]
  lhsNonContracting := [1]
  rhsNonContracting := [1]
  lhsBatch := [0]
  rhsBatch := [0]
  wf := dot_S8x256x8192_S8x2048x8192_S8x256x2048_2_2_1_1_0_0_wf

class Facts : Prop extends Facts₀ where

variable [Facts]
-- ==== Proof.CaseValues.lean ====
/-
  What each control case of the body leaves behind, as values.

  The body runs in one of three ways. At the first tile of an expert (case A) it zeroes the accumulator and then adds
  the tile's share; at a middle tile (case B) it adds the tile's share to what the tile before left; at the last tile
  (case C) it does the same and then copies the accumulator into the output block. In every case the accumulator ends
  at one step of the tile applied to its previous contents — zero, in case A — and in case C the output block is the
  accumulator with a unit axis added in front.

  The window order is x, w1, w2, w3, while the step takes its weights in the order the body loads them: w1, w3, w2.
-/
import proofs.«155143_j41051297415846_1_alg».proof.Proof.Gen.KernelIdeal.Frame
import Idealize.ShloMosaic.Lib.Pipeline.Value
import Idealize.ShloMosaic.Lib.Tactic

set_option maxRecDepth 16384

noncomputable section

namespace Cert.KernelIdeal.Cases

open Cert.KernelIdeal Cert.KernelIdeal.Gen Idealize.ShloMosaic Idealize.ShloMosaic.TcCoe Idealize.SL.Sem

variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl

/-- A middle tile: the accumulator ends at the step applied to what the tile before left. -/
theorem scratch_B (c : Dev nD) (i : grid0.Coords) (arg2 : Memref sig .tc .vmem S1x256x2048 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S256x2048 .f32) (harg7 : arg7.IsWhole) (hc0 : ¬cond0_0 i) (hc1 : ¬cond0_1 i)
    (x0 : Vec F S1x256x2048 .f32) (x1 : Vec F S1x2048x256 .f32) (x2 : Vec F S1x2048x256 .f32) (x3 : Vec F S1x2048x256 .f32) (xs0 : Vec F S256x2048 .f32) :
    sout0_B_0 c i arg2 harg2 arg3 harg3 arg4 harg4 arg5 harg5 arg6 harg6 arg7 harg7 hc0 hc1 x0 x1 x2 x3 xs0 = k0_pay2 x0 x1 x3 x2 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero zero2]
  simp only [View.readAt_eq_ld, harg2.read_unread, harg3.read_unread, harg4.read_unread, harg5.read_unread, harg7.read_unread, View.ld_unit_zero (S := S1x256x2048) zero3, View.ld_unit_zero (S := S1x2048x256) zero3, View.ld_unit_zero (S := S256x2048) zero2]

/-- The last tile: the accumulator ends at the step applied to what the tile before left. -/
theorem scratch_C (c : Dev nD) (i : grid0.Coords) (arg2 : Memref sig .tc .vmem S1x256x2048 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S256x2048 .f32) (harg7 : arg7.IsWhole) (hc0 : ¬cond0_0 i) (hc1 : cond0_1 i)
    (x0 : Vec F S1x256x2048 .f32) (x1 : Vec F S1x2048x256 .f32) (x2 : Vec F S1x2048x256 .f32) (x3 : Vec F S1x2048x256 .f32) (xs0 : Vec F S256x2048 .f32) :
    sout0_C_0 c i arg2 harg2 arg3 harg3 arg4 harg4 arg5 harg5 arg6 harg6 arg7 harg7 hc0 hc1 x0 x1 x2 x3 xs0 = k0_pay2 x0 x1 x3 x2 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero zero2]
  simp only [View.readAt_eq_ld, harg2.read_unread, harg3.read_unread, harg4.read_unread, harg5.read_unread, harg7.read_unread, View.ld_unit_zero (S := S1x256x2048) zero3, View.ld_unit_zero (S := S1x2048x256) zero3, View.ld_unit_zero (S := S256x2048) zero2]

/-- The last tile: the output block is that accumulator, a unit axis added in front. -/
theorem out_C (c : Dev nD) (i : grid0.Coords) (arg2 : Memref sig .tc .vmem S1x256x2048 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S256x2048 .f32) (harg7 : arg7.IsWhole) (hc0 : ¬cond0_0 i) (hc1 : cond0_1 i)
    (x0 : Vec F S1x256x2048 .f32) (x1 : Vec F S1x2048x256 .f32) (x2 : Vec F S1x2048x256 .f32) (x3 : Vec F S1x2048x256 .f32) (xs0 : Vec F S256x2048 .f32) :
    out0_C_4 c i arg2 harg2 arg3 harg3 arg4 harg4 arg5 harg5 arg6 harg6 arg7 harg7 hc0 hc1 x0 x1 x2 x3 xs0 = k0_pay3 (k0_pay2 x0 x1 x3 x2 xs0) := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero zero3, View.readCov_unit_zero (S := S256x2048) _ zero2]
  simp only [View.readAt_eq_ld, harg2.read_unread, harg3.read_unread, harg4.read_unread, harg5.read_unread, harg7.read_unread, View.ld_unit_zero (S := S1x256x2048) zero3, View.ld_unit_zero (S := S1x2048x256) zero3, View.ld_unit_zero (S := S256x2048) zero2]

/-- The first tile: the accumulator is zeroed, read back, and ends at the step applied to zero. -/
theorem scratch_A (c : Dev nD) (i : grid0.Coords) (arg2 : Memref sig .tc .vmem S1x256x2048 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S256x2048 .f32) (harg7 : arg7.IsWhole) (hc0 : cond0_0 i) (hc1 : ¬cond0_1 i)
    (x0 : Vec F S1x256x2048 .f32) (x1 : Vec F S1x2048x256 .f32) (x2 : Vec F S1x2048x256 .f32) (x3 : Vec F S1x2048x256 .f32) :
    sout0_A_0 c i arg2 harg2 arg3 harg3 arg4 harg4 arg5 harg5 arg6 harg6 arg7 harg7 hc0 hc1 x0 x1 x2 x3 = k0_pay2 x0 x1 x3 x2 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S256x2048) zero2]
  simp only [View.readAt_eq_ld, harg2.read_unread, harg3.read_unread, harg4.read_unread, harg5.read_unread, View.ld_unit_zero (S := S1x256x2048) zero3, View.ld_unit_zero (S := S1x2048x256) zero3, View.ld_unit_zero (S := S256x2048) zero2, View.readCov_unit_zero (S := S256x2048) _ zero2]

end Cert.KernelIdeal.Cases

end
-- ==== Proof.TileBlocks.lean ====
/-
  The blocks the body sees at a grid point, as entries of the argument arrays, and the accumulator's step there.

  The grid has 8 × 32 points, expert-major: point `n` works on expert `n / 32` and hidden tile `n % 32`. There the
  `x` window holds the expert's whole [256, 2048] token block, and each weight window holds columns
  `256 · (n % 32), …, 256 · (n % 32) + 255` of the expert's [2048, 8192] weight. The output window's block is the
  expert's whole [256, 2048] result.
-/
import proofs.«155143_j41051297415846_1_alg».proof.Proof.Gen.KernelIdeal.Value
import proofs.«155143_j41051297415846_1_alg».proof.Proof.CaseValues
import Idealize.ShloMosaic.Lib.ValueIdx
import Idealize.ShloMosaic.Lib.Pipeline.Value

noncomputable section

namespace Cert.KernelIdeal.Tiles

open Cert.KernelIdeal Cert.KernelIdeal.Gen Cert.KernelIdeal.Value Idealize.ShloMosaic Idealize.ShloMosaic.TcCoe Idealize.SL.Sem
open Idealize.ShloMosaic.ValueIdx

variable {F : FTy → Type} [FloatOps F]
variable (m : (ℓ : Loc nD τ sig) → Buf (Elt F) ℓ)

/-! ## Where each window's block sits, as a function of the point -/

theorem index_x : ∀ t : Fin cfg0.N, win0_0.index t 0 = t.val / 32 ∧ win0_0.index t 1 = 0 ∧ win0_0.index t 2 = 0 :=
  (by decide +kernel : ∀ t : Fin grid0.N, win0_0.index t 0 = t.val / 32 ∧ win0_0.index t 1 = 0 ∧ win0_0.index t 2 = 0)
theorem index_w1 : ∀ t : Fin cfg0.N, win0_1.index t 0 = t.val / 32 ∧ win0_1.index t 1 = 0 ∧ win0_1.index t 2 = t.val % 32 :=
  (by decide +kernel : ∀ t : Fin grid0.N, win0_1.index t 0 = t.val / 32 ∧ win0_1.index t 1 = 0 ∧ win0_1.index t 2 = t.val % 32)
theorem index_w2 : ∀ t : Fin cfg0.N, win0_2.index t 0 = t.val / 32 ∧ win0_2.index t 1 = 0 ∧ win0_2.index t 2 = t.val % 32 :=
  (by decide +kernel : ∀ t : Fin grid0.N, win0_2.index t 0 = t.val / 32 ∧ win0_2.index t 1 = 0 ∧ win0_2.index t 2 = t.val % 32)
theorem index_w3 : ∀ t : Fin cfg0.N, win0_3.index t 0 = t.val / 32 ∧ win0_3.index t 1 = 0 ∧ win0_3.index t 2 = t.val % 32 :=
  (by decide +kernel : ∀ t : Fin grid0.N, win0_3.index t 0 = t.val / 32 ∧ win0_3.index t 1 = 0 ∧ win0_3.index t 2 = t.val % 32)
theorem index_out : ∀ t : Fin cfg0.N, win0_4.index t 0 = t.val / 32 ∧ win0_4.index t 1 = 0 ∧ win0_4.index t 2 = 0 :=
  (by decide +kernel : ∀ t : Fin grid0.N, win0_4.index t 0 = t.val / 32 ∧ win0_4.index t 1 = 0 ∧ win0_4.index t 2 = 0)

/-! ## The input blocks, under their literal types -/

/-- The token block of `x` at point `t`. -/
abbrev xblk (c : Dev nD) (t : Fin cfg0.N) : Vec F S1x256x2048 .f32 := iblk m c 0 t
/-- The tile of `w1` at point `t`. -/
abbrev w1blk (c : Dev nD) (t : Fin cfg0.N) : Vec F S1x2048x256 .f32 := iblk m c 1 t
/-- The tile of `w2` at point `t`. -/
abbrev w2blk (c : Dev nD) (t : Fin cfg0.N) : Vec F S1x2048x256 .f32 := iblk m c 2 t
/-- The tile of `w3` at point `t`. -/
abbrev w3blk (c : Dev nD) (t : Fin cfg0.N) : Vec F S1x2048x256 .f32 := iblk m c 3 t

/-- An entry of the token block is the expert's entry of `x`. -/
theorem xblk_apply (c : Dev nD) (t : Fin cfg0.N) (r : Fin 256) (q : Fin 2048) (e : Fin 8) (he : e.val = t.val / 32) :
    xblk m c t (ix3 (0 : Fin 1) r q) = m ((c : Thread nD τ).loc main_arg0) (ix3 e r q) := by
  show iblk m c 0 t (ix3 (0 : Fin 1) r q) = _
  unfold iblk
  rw [View.read_apply]
  show V m c main_arg0 _ = m (c.tc.loc main_arg0) _
  unfold V
  congr 1
  funext a
  apply Fin.ext
  match a with
  | ⟨0, _⟩ => show win0_0.index t 0 * 1 + 1 * 0 = e.val; rw [(index_x t).1]; omega
  | ⟨1, _⟩ => show win0_0.index t 1 * 256 + 1 * r.val = r.val; rw [(index_x t).2.1]; omega
  | ⟨2, _⟩ => show win0_0.index t 2 * 2048 + 1 * q.val = q.val; rw [(index_x t).2.2]; omega

/-- An entry of the `w1` tile is the expert's entry of `w1` in the tile's hidden column. -/
theorem w1blk_apply (c : Dev nD) (t : Fin cfg0.N) (q : Fin 2048) (k : Fin 256) (e : Fin 8) (h : Fin 8192)
    (he : e.val = t.val / 32) (hh : h.val = 256 * (t.val % 32) + k.val) :
    w1blk m c t (ix3 (0 : Fin 1) q k) = m ((c : Thread nD τ).loc main_arg1) (ix3 e q h) := by
  show iblk m c 1 t (ix3 (0 : Fin 1) q k) = _
  unfold iblk
  rw [View.read_apply]
  show V m c main_arg1 _ = m (c.tc.loc main_arg1) _
  unfold V
  congr 1
  funext a
  apply Fin.ext
  match a with
  | ⟨0, _⟩ => show win0_1.index t 0 * 1 + 1 * 0 = e.val; rw [(index_w1 t).1]; omega
  | ⟨1, _⟩ => show win0_1.index t 1 * 2048 + 1 * q.val = q.val; rw [(index_w1 t).2.1]; omega
  | ⟨2, _⟩ => show win0_1.index t 2 * 256 + 1 * k.val = h.val; rw [(index_w1 t).2.2]; omega

/-- An entry of the `w2` tile is the expert's entry of `w2` in the tile's hidden column. -/
theorem w2blk_apply (c : Dev nD) (t : Fin cfg0.N) (q : Fin 2048) (k : Fin 256) (e : Fin 8) (h : Fin 8192)
    (he : e.val = t.val / 32) (hh : h.val = 256 * (t.val % 32) + k.val) :
    w2blk m c t (ix3 (0 : Fin 1) q k) = m ((c : Thread nD τ).loc main_arg2) (ix3 e q h) := by
  show iblk m c 2 t (ix3 (0 : Fin 1) q k) = _
  unfold iblk
  rw [View.read_apply]
  show V m c main_arg2 _ = m (c.tc.loc main_arg2) _
  unfold V
  congr 1
  funext a
  apply Fin.ext
  match a with
  | ⟨0, _⟩ => show win0_2.index t 0 * 1 + 1 * 0 = e.val; rw [(index_w2 t).1]; omega
  | ⟨1, _⟩ => show win0_2.index t 1 * 2048 + 1 * q.val = q.val; rw [(index_w2 t).2.1]; omega
  | ⟨2, _⟩ => show win0_2.index t 2 * 256 + 1 * k.val = h.val; rw [(index_w2 t).2.2]; omega

/-- An entry of the `w3` tile is the expert's entry of `w3` in the tile's hidden column. -/
theorem w3blk_apply (c : Dev nD) (t : Fin cfg0.N) (q : Fin 2048) (k : Fin 256) (e : Fin 8) (h : Fin 8192)
    (he : e.val = t.val / 32) (hh : h.val = 256 * (t.val % 32) + k.val) :
    w3blk m c t (ix3 (0 : Fin 1) q k) = m ((c : Thread nD τ).loc main_arg3) (ix3 e q h) := by
  show iblk m c 3 t (ix3 (0 : Fin 1) q k) = _
  unfold iblk
  rw [View.read_apply]
  show V m c main_arg3 _ = m (c.tc.loc main_arg3) _
  unfold V
  congr 1
  funext a
  apply Fin.ext
  match a with
  | ⟨0, _⟩ => show win0_3.index t 0 * 1 + 1 * 0 = e.val; rw [(index_w3 t).1]; omega
  | ⟨1, _⟩ => show win0_3.index t 1 * 2048 + 1 * q.val = q.val; rw [(index_w3 t).2.1]; omega
  | ⟨2, _⟩ => show win0_3.index t 2 * 256 + 1 * k.val = h.val; rw [(index_w3 t).2.2]; omega

/-! ## The accumulator's step at a point -/

/-- The tile step of point `n` applied to an accumulator. -/
def stepAt (c : Dev nD) (n : ℕ) (hb : n < cfg0.N) (acc : Vec F S256x2048 .f32) : Vec F S256x2048 .f32 :=
  k0_pay2 (xblk m c ⟨n, hb⟩) (w1blk m c ⟨n, hb⟩) (w3blk m c ⟨n, hb⟩) (w2blk m c ⟨n, hb⟩) acc

/-- At an expert's first tile the accumulator ends at the step applied to zero, whatever it held. -/
theorem scAt_first (c : Dev nD) (n : ℕ) (hb : n < cfg0.N) (h0 : n % 32 = 0) (acc : Vec F S256x2048 .f32) :
    scAt0_0 m c n hb acc = stepAt m c n hb (k0_pay1 (F := F)) := by
  have h1 : ¬n % 32 = 31 := by omega
  unfold scAt0_0
  rw [dif_pos h0, dif_neg h1]
  exact Cases.scratch_A c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N))

/-- At every later tile it ends at the step applied to what it held. -/
theorem scAt_later (c : Dev nD) (n : ℕ) (hb : n < cfg0.N) (h0 : ¬n % 32 = 0) (acc : Vec F S256x2048 .f32) :
    scAt0_0 m c n hb acc = stepAt m c n hb acc := by
  unfold scAt0_0
  by_cases h1 : n % 32 = 31
  · rw [dif_neg h0, dif_pos h1]
    exact Cases.scratch_C c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc
  · rw [dif_neg h0, dif_neg h1]
    exact Cases.scratch_B c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc

/-- At an expert's last tile the output block is the accumulator as that point leaves it, a unit axis added in front. -/
theorem out_last (c : Dev nD) (t : Fin cfg0.N) (h0 : ¬t.val % 32 = 0) (h1 : t.val % 32 = 31) :
    (outsAt0 m c t.val t.isLt).1 = k0_pay3 ((outsAt0 m c t.val t.isLt).2) := by
  rw [outsAt0_C m c t h0 h1]
  dsimp only
  rw [Cases.out_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2,
    Cases.scratch_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2]

end Cert.KernelIdeal.Tiles

end
-- ==== Proof.TileStep.lean ====
/-
  One grid point's arithmetic, read at an index over the extended reals.

  At grid point (e, s) the body holds expert `e`'s whole token block `x` [256, 2048] and tile `s` (256 hidden columns) of
  each weight, `w1`, `w3`, `w2` [2048, 256].  It forms the gate and up projections of the tile,
      gate(t, k) = Σ_q x(t, q) · w1(q, k),      up(t, k) = Σ_q x(t, q) · w3(q, k),
  the activation  mid(t, k) = (gate(t, k) · σ(gate(t, k))) · up(t, k)  with σ the logistic function, and adds the tile's
  share of the down projection to the accumulator:
      acc'(t, d) = acc(t, d) + Σ_k mid(t, k) · w2(d, k).
  Changes of float format are the identity on the extended reals, and a matrix product into a zero accumulator is the
  plain sum, so nothing else enters.
-/
import proofs.«155143_j41051297415846_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.TileStep

open Cert.KernelIdeal Cert.KernelIdeal.Gen Idealize.ShloMosaic Idealize.ShloMosaic.ValueIdx

/-! ## The projection into the tile: rows of `x` against columns of a weight tile (contraction over the 2048 model columns) -/

theorem proj_lhs_0 (j : S256x256.Idx) (q : dot_S256x2048_S2048x256_S256x256_1_0_0_1_n_n.contr.Idx) :
    (dot_S256x2048_S2048x256_S256x256_1_0_0_1_n_n.lhsIdx j q 0).val = (j 0).val := by
  unfold DotDims.lhsIdx
  rw [dif_neg (show ¬(0 : Fin S256x2048.rank) ∈ dot_S256x2048_S2048x256_S256x256_1_0_0_1_n_n.lhsBatch by decide), dif_pos (show (0 : Fin S256x2048.rank) ∈ dot_S256x2048_S2048x256_S256x256_1_0_0_1_n_n.lhsNonContracting by decide)]
  rfl
theorem proj_lhs_1 (j : S256x256.Idx) (q : dot_S256x2048_S2048x256_S256x256_1_0_0_1_n_n.contr.Idx) :
    (dot_S256x2048_S2048x256_S256x256_1_0_0_1_n_n.lhsIdx j q 1).val = (q ⟨0, by decide⟩).val :=
  dot_S256x2048_S2048x256_S256x256_1_0_0_1_n_n.lhsIdx_val_of_single rfl j q
theorem proj_rhs_0 (j : S256x256.Idx) (q : dot_S256x2048_S2048x256_S256x256_1_0_0_1_n_n.contr.Idx) :
    (dot_S256x2048_S2048x256_S256x256_1_0_0_1_n_n.rhsIdx j q 0).val = (q ⟨0, by decide⟩).val :=
  dot_S256x2048_S2048x256_S256x256_1_0_0_1_n_n.rhsIdx_val_of_single rfl j q
theorem proj_rhs_1 (j : S256x256.Idx) (q : dot_S256x2048_S2048x256_S256x256_1_0_0_1_n_n.contr.Idx) :
    (dot_S256x2048_S2048x256_S256x256_1_0_0_1_n_n.rhsIdx j q 1).val = (j 1).val := by
  unfold DotDims.rhsIdx
  rw [dif_neg (show ¬(1 : Fin S2048x256.rank) ∈ dot_S256x2048_S2048x256_S256x256_1_0_0_1_n_n.rhsBatch by decide), dif_pos (show (1 : Fin S2048x256.rank) ∈ dot_S256x2048_S2048x256_S256x256_1_0_0_1_n_n.rhsNonContracting by decide)]
  rfl

/-- The product of a [256, 2048] block with a [2048, 256] tile, into zero, at (t, k): the sum over the model columns. -/
theorem proj_apply {φ₁ φ₂ : FTy} (a : FVec Ideal S256x2048 φ₁) (w : FVec Ideal S2048x256 φ₂) (t k : Fin 256) :
    matmul dot_S256x2048_S2048x256_S256x256_1_0_0_1_n_n none a w (constant S256x256 .f32 0x00000000#32) (ix2 t k)
      = ∑ q : Fin 2048, a (ix2 t q) * w (ix2 q k) := by
  refine (Ideal.matmul_constant_zero_apply dot_S256x2048_S2048x256_S256x256_1_0_0_1_n_n none a w (ix2 t k)).trans ?_
  rw [← Equiv.sum_comp (contrEquiv1 dot_S256x2048_S2048x256_S256x256_1_0_0_1_n_n 2048 rfl rfl).symm]
  refine Finset.sum_congr rfl fun q _ => ?_
  have hq := contrEquiv1_symm_val dot_S256x2048_S2048x256_S256x256_1_0_0_1_n_n 2048 rfl rfl q
  have el : dot_S256x2048_S2048x256_S256x256_1_0_0_1_n_n.lhsIdx (ix2 t k) ((contrEquiv1 dot_S256x2048_S2048x256_S256x256_1_0_0_1_n_n 2048 rfl rfl).symm q) = ix2 t q := funext fun c => Fin.ext (by
    match c with
    | ⟨0, _⟩ => exact proj_lhs_0 _ _
    | ⟨1, _⟩ => exact (proj_lhs_1 _ _).trans hq)
  have er : dot_S256x2048_S2048x256_S256x256_1_0_0_1_n_n.rhsIdx (ix2 t k) ((contrEquiv1 dot_S256x2048_S2048x256_S256x256_1_0_0_1_n_n 2048 rfl rfl).symm q) = ix2 q k := funext fun c => Fin.ext (by
    match c with
    | ⟨0, _⟩ => exact (proj_rhs_0 _ _).trans hq
    | ⟨1, _⟩ => exact proj_rhs_1 _ _)
  rw [el, er]

/-- The same product of the loaded blocks themselves: the leading unit axis of a block is dropped and the operands are
    narrowed before the product, neither of which changes a value. -/
theorem proj_block_apply (x : Vec Ideal S1x256x2048 .f32) (w : Vec Ideal S1x2048x256 .f32) (t k : Fin 256) :
    matmul (F := Ideal) (φ₁ := .bf16) (φ₂ := .bf16) dot_S256x2048_S2048x256_S256x256_1_0_0_1_n_n none
        (truncf .bf16 (shapeCast S256x2048 x shapeCasts_S1x256x2048_S256x2048) bitsLt_bf16_f32)
        (truncf .bf16 (shapeCast S2048x256 w shapeCasts_S1x2048x256_S2048x256) bitsLt_bf16_f32)
        (constant S256x256 .f32 0x00000000#32) (ix2 t k)
      = ∑ q : Fin 2048, x (ix3 (0 : Fin 1) t q) * w (ix3 (0 : Fin 1) q k) := by
  refine (proj_apply _ _ t k).trans (Finset.sum_congr rfl fun q _ => ?_)
  show shapeCast S256x2048 x shapeCasts_S1x256x2048_S256x2048 (ix2 t q)
      * shapeCast S2048x256 w shapeCasts_S1x2048x256_S2048x256 (ix2 q k) = _
  rw [shapeCast_1ab_ab_apply, shapeCast_1ab_ab_apply]

/-! ## The projection back: activation rows against rows of the `w2` tile (contraction over the tile's 256 hidden columns) -/

theorem back_lhs_0 (j : S256x2048.Idx) (q : dot_S256x256_S2048x256_S256x2048_1_1_0_0_n_n.contr.Idx) :
    (dot_S256x256_S2048x256_S256x2048_1_1_0_0_n_n.lhsIdx j q 0).val = (j 0).val := by
  unfold DotDims.lhsIdx
  rw [dif_neg (show ¬(0 : Fin S256x256.rank) ∈ dot_S256x256_S2048x256_S256x2048_1_1_0_0_n_n.lhsBatch by decide), dif_pos (show (0 : Fin S256x256.rank) ∈ dot_S256x256_S2048x256_S256x2048_1_1_0_0_n_n.lhsNonContracting by decide)]
  rfl
theorem back_lhs_1 (j : S256x2048.Idx) (q : dot_S256x256_S2048x256_S256x2048_1_1_0_0_n_n.contr.Idx) :
    (dot_S256x256_S2048x256_S256x2048_1_1_0_0_n_n.lhsIdx j q 1).val = (q ⟨0, by decide⟩).val :=
  dot_S256x256_S2048x256_S256x2048_1_1_0_0_n_n.lhsIdx_val_of_single rfl j q
theorem back_rhs_0 (j : S256x2048.Idx) (q : dot_S256x256_S2048x256_S256x2048_1_1_0_0_n_n.contr.Idx) :
    (dot_S256x256_S2048x256_S256x2048_1_1_0_0_n_n.rhsIdx j q 0).val = (j 1).val := by
  unfold DotDims.rhsIdx
  rw [dif_neg (show ¬(0 : Fin S2048x256.rank) ∈ dot_S256x256_S2048x256_S256x2048_1_1_0_0_n_n.rhsBatch by decide), dif_pos (show (0 : Fin S2048x256.rank) ∈ dot_S256x256_S2048x256_S256x2048_1_1_0_0_n_n.rhsNonContracting by decide)]
  rfl
theorem back_rhs_1 (j : S256x2048.Idx) (q : dot_S256x256_S2048x256_S256x2048_1_1_0_0_n_n.contr.Idx) :
    (dot_S256x256_S2048x256_S256x2048_1_1_0_0_n_n.rhsIdx j q 1).val = (q ⟨0, by decide⟩).val :=
  dot_S256x256_S2048x256_S256x2048_1_1_0_0_n_n.rhsIdx_val_of_single rfl j q

/-- The product of a [256, 256] activation tile with a [2048, 256] weight tile over their SECOND axes, into zero, at
    (t, d): the sum over the tile's hidden columns. -/
theorem back_apply {φ₁ φ₂ : FTy} (a : FVec Ideal S256x256 φ₁) (w : FVec Ideal S2048x256 φ₂) (t : Fin 256) (d : Fin 2048) :
    matmul dot_S256x256_S2048x256_S256x2048_1_1_0_0_n_n none a w (constant S256x2048 .f32 0x00000000#32) (ix2 t d)
      = ∑ k : Fin 256, a (ix2 t k) * w (ix2 d k) := by
  refine (Ideal.matmul_constant_zero_apply dot_S256x256_S2048x256_S256x2048_1_1_0_0_n_n none a w (ix2 t d)).trans ?_
  rw [← Equiv.sum_comp (contrEquiv1 dot_S256x256_S2048x256_S256x2048_1_1_0_0_n_n 256 rfl rfl).symm]
  refine Finset.sum_congr rfl fun k _ => ?_
  have hk := contrEquiv1_symm_val dot_S256x256_S2048x256_S256x2048_1_1_0_0_n_n 256 rfl rfl k
  have el : dot_S256x256_S2048x256_S256x2048_1_1_0_0_n_n.lhsIdx (ix2 t d) ((contrEquiv1 dot_S256x256_S2048x256_S256x2048_1_1_0_0_n_n 256 rfl rfl).symm k) = ix2 t k := funext fun c => Fin.ext (by
    match c with
    | ⟨0, _⟩ => exact back_lhs_0 _ _
    | ⟨1, _⟩ => exact (back_lhs_1 _ _).trans hk)
  have er : dot_S256x256_S2048x256_S256x2048_1_1_0_0_n_n.rhsIdx (ix2 t d) ((contrEquiv1 dot_S256x256_S2048x256_S256x2048_1_1_0_0_n_n 256 rfl rfl).symm k) = ix2 d k := funext fun c => Fin.ext (by
    match c with
    | ⟨0, _⟩ => exact back_rhs_0 _ _
    | ⟨1, _⟩ => exact (back_rhs_1 _ _).trans hk)
  rw [el, er]

/-! ## The activation and the whole step -/

/-- The gated activation at an index: `(g · σ(g)) · u`, the narrowing before the second product being the identity. -/
theorem mid_apply (g u : FVec Ideal S256x256 .f32) (j : S256x256.Idx) :
    (truncf .bf16 (mulf (mulf g (logistic g)) u) bitsLt_bf16_f32 : FVec Ideal S256x256 .bf16) j
      = g j * Ideal.logistic (g j) * u j := rfl

/-- ONE GRID POINT'S STEP at (t, d): the accumulator plus the tile's share of the down projection, the activation
    written out over the tile's gate and up projections. The blocks are the loaded ones, with their leading unit axis. -/
theorem step_apply (x : Vec Ideal S1x256x2048 .f32) (w1 w3 w2 : Vec Ideal S1x2048x256 .f32) (acc : Vec Ideal S256x2048 .f32)
    (t : Fin 256) (d : Fin 2048) :
    k0_pay2 x w1 w3 w2 acc (ix2 t d)
      = acc (ix2 t d) + ∑ k : Fin 256,
          ((∑ q : Fin 2048, x (ix3 (0 : Fin 1) t q) * w1 (ix3 (0 : Fin 1) q k))
              * Ideal.logistic (∑ q : Fin 2048, x (ix3 (0 : Fin 1) t q) * w1 (ix3 (0 : Fin 1) q k))
              * (∑ q : Fin 2048, x (ix3 (0 : Fin 1) t q) * w3 (ix3 (0 : Fin 1) q k)))
            * w2 (ix3 (0 : Fin 1) d k) := by
  unfold k0_pay2
  rw [shapeCast_self]
  refine (addf_apply _ _ _).trans (congrArg (acc (ix2 t d) + ·) ?_)
  refine (back_apply _ _ t d).trans (Finset.sum_congr rfl fun k _ => ?_)
  rw [mid_apply, proj_block_apply, proj_block_apply]
  show _ * shapeCast S2048x256 w2 shapeCasts_S1x2048x256_S2048x256 (ix2 d k) = _
  rw [shapeCast_1ab_ab_apply]

/-- The reset value of the accumulator: zero everywhere. -/
theorem reset_apply (j : S256x2048.Idx) : (k0_pay1 (F := Ideal)) j = 0 := by
  unfold k0_pay1
  rw [shapeCast_self]
  exact Ideal.ofBits_zero_f32

end Cert.KernelIdeal.TileStep

end
-- ==== Proof.TileSum.lean ====
/-
  Splitting a sum over the hidden axis into tiles.

  A sum over the 8192 hidden columns, taken as 32 consecutive tiles of 256 columns each: column `h` is
  column `k = h % 256` of tile `s = h / 256`, that is `h = 256 * s + k`.  Regrouping a finite sum needs only that
  addition is commutative and associative, so the statement holds in every additive commutative monoid — in particular on
  the extended reals, where no finiteness of the summands is asked.
-/
import Mathlib.Algebra.BigOperators.Fin
import Mathlib.Logic.Equiv.Fin.Basic

namespace Cert.TileSum

/-- The sum over all 8192 hidden columns is the sum, over the 32 tiles in order, of each tile's 256 columns. -/
theorem sum_hidden_eq_sum_tiles {β : Type*} [AddCommMonoid β] (f : ℕ → β) :
    ∑ h : Fin 8192, f h.val = ∑ s ∈ Finset.range 32, ∑ k : Fin 256, f (256 * s + k.val) := by
  calc ∑ h : Fin 8192, f h.val
      = ∑ p : Fin 32 × Fin 256, f ((finProdFinEquiv p).val) :=
        (Equiv.sum_comp (finProdFinEquiv (m := 32) (n := 256)) (fun h : Fin (32 * 256) => f h.val)).symm
    _ = ∑ s : Fin 32, ∑ k : Fin 256, f (256 * s.val + k.val) := by
        rw [Fintype.sum_prod_type]
        refine Finset.sum_congr rfl (fun s _ => Finset.sum_congr rfl (fun k _ => ?_))
        congr 1
        show k.val + 256 * s.val = 256 * s.val + k.val
        omega
    _ = ∑ s ∈ Finset.range 32, ∑ k : Fin 256, f (256 * s + k.val) :=
        Fin.sum_univ_eq_sum_range (fun s => ∑ k : Fin 256, f (256 * s + k.val)) 32

end Cert.TileSum
-- ==== Proof.Swiglu.lean ====
/-
  The grouped SwiGLU feed-forward, as one function of its four arrays.

  For expert `e`, token `t` and model column `d`,
      out(e, t, d) = Σ_h  mid(e, t, h) · w2(e, d, h),                       h over the 8192 hidden columns,
      mid(e, t, h) = (g · σ(g)) · u,   g = Σ_q x(e, t, q) · w1(e, q, h),   u = Σ_q x(e, t, q) · w3(e, q, h),
  with σ(g) = 1 / (1 + exp(−g)) the logistic function and q over the 2048 model columns. Everything is read on the
  extended reals; no summand is assumed finite, and nothing below needs it: the only law used is that a finite sum may be
  regrouped, here into the 32 tiles of 256 hidden columns.
-/
import Idealize.ShloMosaic.PureOps.Ideal
import Idealize.ShloMosaic.Lib.ValueIdx
import proofs.«155143_j41051297415846_1_alg».proof.Proof.TileSum

noncomputable section

namespace Cert.Swiglu

open Idealize.ShloMosaic Idealize.ShloMosaic.ValueIdx

/-- The shape of `x` and of the result: experts × tokens × model columns. -/
abbrev ActShape : Shape := ⟨3, ![8, 256, 2048]⟩
/-- The shape of each weight: experts × model columns × hidden columns. -/
abbrev WeightShape : Shape := ⟨3, ![8, 2048, 8192]⟩

variable (X : ActShape.Idx → EReal) (W1 W2 W3 : WeightShape.Idx → EReal)

/-- A projection into the hidden axis: `Σ_q x(e, t, q) · w(e, q, h)`. -/
def proj (W : WeightShape.Idx → EReal) (e : Fin 8) (t : Fin 256) (h : Fin 8192) : EReal :=
  ∑ q : Fin 2048, X (ix3 e t q) * W (ix3 e q h)

/-- The gated activation: `(g · σ(g)) · u` of the gate and up projections. -/
def mid (e : Fin 8) (t : Fin 256) (h : Fin 8192) : EReal :=
  proj X W1 e t h * Ideal.logistic (proj X W1 e t h) * proj X W3 e t h

/-- Hidden column `h`'s contribution to `out(e, t, d)`. -/
def term (e : Fin 8) (t : Fin 256) (d : Fin 2048) (h : Fin 8192) : EReal :=
  mid X W1 W3 e t h * W2 (ix3 e d h)

/-- THE RESULT at an index: the sum of the contributions of all hidden columns. -/
def out (i : ActShape.Idx) : EReal :=
  ∑ h : Fin 8192, term X W1 W2 W3 (i 0) (i 1) (i 2) h

/-- The contribution of hidden column number `h`, for any natural `h` (zero past the last column, where it is never read). -/
def termAt (e : Fin 8) (t : Fin 256) (d : Fin 2048) (h : ℕ) : EReal :=
  if hh : h < 8192 then term X W1 W2 W3 e t d ⟨h, hh⟩ else 0

theorem termAt_of_lt (e : Fin 8) (t : Fin 256) (d : Fin 2048) (h : ℕ) (hh : h < 8192) :
    termAt X W1 W2 W3 e t d h = term X W1 W2 W3 e t d ⟨h, hh⟩ := dif_pos hh

/-- Tile `s`'s share of `out(e, t, d)`: its 256 hidden columns `256 s, …, 256 s + 255`. -/
def tileShare (e : Fin 8) (t : Fin 256) (d : Fin 2048) (s : ℕ) : EReal :=
  ∑ k : Fin 256, termAt X W1 W2 W3 e t d (256 * s + k.val)

/-- The result is the sum of the 32 tiles' shares, in order. -/
theorem out_eq_sum_tiles (i : ActShape.Idx) :
    out X W1 W2 W3 i = ∑ s ∈ Finset.range 32, tileShare X W1 W2 W3 (i 0) (i 1) (i 2) s := by
  unfold out tileShare
  rw [← Cert.TileSum.sum_hidden_eq_sum_tiles (termAt X W1 W2 W3 (i 0) (i 1) (i 2))]
  exact Finset.sum_congr rfl fun h _ => (termAt_of_lt X W1 W2 W3 _ _ _ h.val h.isLt).symm

end Cert.Swiglu

end
-- ==== Proof.Accumulated.lean ====
/-
  The kernel's result array is the grouped SwiGLU function of its arguments.

  Over an expert's 32 grid points the accumulator starts at zero and gains one tile's share of the down projection per
  point, so after the expert's last point it holds `0 + Σ_s share(s)`, the sum over the tiles in order; regrouped, that
  is the sum over all 8192 hidden columns. The last point copies the accumulator into the output block, which the
  pipeline writes to the expert's [256, 2048] slab of the result; the 8 slabs tile the result array.
-/
import proofs.«155143_j41051297415846_1_alg».proof.Proof.TileBlocks
import proofs.«155143_j41051297415846_1_alg».proof.Proof.TileStep
import proofs.«155143_j41051297415846_1_alg».proof.Proof.Swiglu
import Idealize.ShloMosaic.Lib.ValueLayout

noncomputable section

namespace Cert.KernelIdeal.Accumulated

open Cert.KernelIdeal Cert.KernelIdeal.Gen Cert.KernelIdeal.Value Cert.KernelIdeal.Tiles
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The argument arrays on core `c`. -/
abbrev X (c : Dev nD) : Cert.Swiglu.ActShape.Idx → EReal := m ((c : Thread nD τ).loc main_arg0)
abbrev W1 (c : Dev nD) : Cert.Swiglu.WeightShape.Idx → EReal := m ((c : Thread nD τ).loc main_arg1)
abbrev W2 (c : Dev nD) : Cert.Swiglu.WeightShape.Idx → EReal := m ((c : Thread nD τ).loc main_arg2)
abbrev W3 (c : Dev nD) : Cert.Swiglu.WeightShape.Idx → EReal := m ((c : Thread nD τ).loc main_arg3)

/-- What the result array ends holding. -/
abbrev result (c : Dev nD) : Buf (Elt Ideal) ((c : Thread nD τ).loc main_v0) := Cert.Swiglu.out (X m c) (W1 m c) (W2 m c) (W3 m c)

/-! ## One point: the accumulator gains the tile's share -/

/-- The step at point `n` — expert `e = n / 32`, tile `n % 32` — adds that tile's share at every (t, d). -/
theorem stepAt_apply (c : Dev nD) (n : ℕ) (hb : n < cfg0.N) (acc : Vec Ideal S256x2048 .f32) (e : Fin 8) (he : e.val = n / 32)
    (t : Fin 256) (d : Fin 2048) :
    stepAt m c n hb acc (ix2 t d) = acc (ix2 t d) + Cert.Swiglu.tileShare (X m c) (W1 m c) (W2 m c) (W3 m c) e t d (n % 32) := by
  unfold stepAt
  rw [Cert.KernelIdeal.TileStep.step_apply]
  refine congrArg (acc (ix2 t d) + ·) ?_
  unfold Cert.Swiglu.tileShare
  refine Finset.sum_congr rfl fun k _ => ?_
  have hlt : 256 * (n % 32) + k.val < 8192 := by
    have := k.isLt; have := Nat.mod_lt n (by decide : 0 < 32); omega
  rw [Cert.Swiglu.termAt_of_lt _ _ _ _ _ _ _ _ hlt]
  unfold Cert.Swiglu.term Cert.Swiglu.mid
  have hproj : ∀ (wb : Vec Ideal S1x2048x256 .f32) (W : Cert.Swiglu.WeightShape.Idx → EReal),
      (∀ q : Fin 2048, wb (ix3 (0 : Fin 1) q k) = W (ix3 e q ⟨256 * (n % 32) + k.val, hlt⟩)) →
      (∑ q : Fin 2048, xblk m c ⟨n, hb⟩ (ix3 (0 : Fin 1) t q) * wb (ix3 (0 : Fin 1) q k))
        = Cert.Swiglu.proj (X m c) W e t ⟨256 * (n % 32) + k.val, hlt⟩ := fun wb W hw => by
    unfold Cert.Swiglu.proj
    refine Finset.sum_congr rfl fun q _ => ?_
    rw [xblk_apply m c ⟨n, hb⟩ t q e he, hw q]
  rw [hproj _ (W1 m c) (fun q => w1blk_apply m c ⟨n, hb⟩ q k e _ he rfl),
    hproj _ (W3 m c) (fun q => w3blk_apply m c ⟨n, hb⟩ q k e _ he rfl),
    w2blk_apply m c ⟨n, hb⟩ d k e ⟨256 * (n % 32) + k.val, hlt⟩ he rfl]

/-! ## An expert's run: the accumulator after any of its points -/

/-- After point `t` the accumulator holds zero plus the shares of the expert's tiles `0, …, t % 32`. -/
theorem scratch_apply (c : Dev nD) (t : Fin cfg0.N) (e : Fin 8) (he : e.val = t.val / 32) (r : Fin 256) (d : Fin 2048) :
    (outsAt0 m c t.val t.isLt).2 (ix2 r d)
      = 0 + ∑ s ∈ Finset.range (t.val % 32 + 1), Cert.Swiglu.tileShare (X m c) (W1 m c) (W2 m c) (W3 m c) e r d s := by
  have hN : cfg0.N = 256 := N_0
  have ht : t.val < 256 := lt_of_lt_of_eq t.isLt hN
  rw [soutsAt0_0_eq m c t]
  have key := Pipeline.accAt_add_apply (ι := S256x2048.Idx) (β := EReal)
    (fun n h => scAt0_0 m c n h (VS0_0.read (Elt Ideal) VS0_0.junk)) (scAt0_0 m c)
    (fun _ => 0) (fun n i => Cert.Swiglu.tileShare (X m c) (W1 m c) (W2 m c) (W3 m c) e (i 0) (i 1) (n - 32 * (t.val / 32)))
    (32 * (t.val / 32)) 31
    (fun h i => by
      obtain ⟨p, q, rfl⟩ : ∃ (p : Fin 256) (q : Fin 2048), i = ix2 p q := ⟨i 0, i 1, eq_ix2 i⟩
      rw [scAt_first m c _ h (Nat.mul_mod_right 32 _)]
      refine (stepAt_apply m c _ h _ e (by rw [he]; omega) p q).trans ?_
      rw [Cert.KernelIdeal.TileStep.reset_apply, Nat.mul_mod_right, Nat.sub_self])
    (fun n h acc i hlo hhi => by
      have h0 : ¬n % 32 = 0 := by omega
      obtain ⟨p, q, rfl⟩ : ∃ (p : Fin 256) (q : Fin 2048), i = ix2 p q := ⟨i 0, i 1, eq_ix2 i⟩
      rw [scAt_later m c n h h0]
      refine (stepAt_apply m c n h acc e (by rw [he]; omega) p q).trans ?_
      rw [show n % 32 = n - 32 * (t.val / 32) by omega])
    (t.val % 32) (by have := Nat.mod_lt t.val (by decide : 0 < 32); omega)
  refine (key _ (ix2 r d)).trans (congrArg ((0 : EReal) + ·) (Finset.sum_congr rfl fun s _ => ?_))
  show Cert.Swiglu.tileShare (X m c) (W1 m c) (W2 m c) (W3 m c) e r d (32 * (t.val / 32) + s - 32 * (t.val / 32)) = _
  rw [Nat.add_sub_cancel_left]

/-- At an expert's last point the output block, read at a block index, is the result at the matching array index. -/
theorem out_block_apply (c : Dev nD) (t : Fin cfg0.N) (h31 : t.val % 32 = 31) (y : S1x256x2048.Idx) (i : S8x256x2048.Idx)
    (h0 : (i 0).val = t.val / 32) (h1 : (i 1).val = (y 1).val) (h2 : (i 2).val = (y 2).val) :
    k0_pay3 ((outsAt0 m c t.val t.isLt).2) y = result m c i := by
  obtain ⟨u, p, q, rfl⟩ : ∃ (u : Fin 1) (p : Fin 256) (q : Fin 2048), y = ix3 u p q := ⟨y 0, y 1, y 2, eq_ix3 y⟩
  have e1 : i 1 = p := Fin.ext h1
  have e2 : i 2 = q := Fin.ext h2
  unfold k0_pay3
  rw [shapeCast_ab_1ab_apply, scratch_apply m c t (i 0) h0 p q, h31, zero_add]
  show _ = Cert.Swiglu.out (X m c) (W1 m c) (W2 m c) (W3 m c) i
  rw [Cert.Swiglu.out_eq_sum_tiles, e1, e2]

/-! ## From the blocks to the array -/

/-- WHAT A WRITING POINT WRITES BACK is its block of the result. -/
theorem flushed_eq (c : Dev nD) (t : Fin cfg0.N) (hf : (cfg0.win 4).flush t = true) :
    (dats m 0 c).flushed 4 t = ((cfg0.win 4).blk t).view.read (Elt Ideal) (result m c) := by
  have h31 : t.val % 32 = 31 := (flush0_4 t).mp hf
  have h0 : ¬t.val % 32 = 0 := by omega
  rw [flushed4, out_last m c t h0 h31]
  funext y
  show k0_pay3 ((outsAt0 m c t.val t.isLt).2) y = result m c (((cfg0.win 4).blk t).view.emb y)
  refine out_block_apply m c t h31 y _ ?_ ?_ ?_
  · show win0_4.index t 0 * 1 + 1 * (y 0).val = t.val / 32
    have hy : (y 0).val < 1 := (y 0).isLt
    rw [(index_out t).1]; omega
  · show win0_4.index t 1 * 256 + 1 * (y 1).val = (y 1).val
    rw [(index_out t).2.1]; omega
  · show win0_4.index t 2 * 2048 + 1 * (y 2).val = (y 2).val
    rw [(index_out t).2.2]; omega

/-- An index of the result is in point `t`'s block iff each coordinate is in the block's range on its axis. -/
theorem mem_blk (t : Fin cfg0.N) (i : S8x256x2048.Idx) :
    i ∈ ((cfg0.win 4).blk t).view.set ↔ ∀ a : Fin 3, win0_4.index t a * S1x256x2048.size a ≤ (i a).val ∧ (i a).val < win0_4.index t a * S1x256x2048.size a + S1x256x2048.size a := by
  show i ∈ ((View.whole main_v0).slice (win0_4.rect t)).set ↔ _
  rw [View.set_slice_whole, Rect.mem_set_unit]
  exact Iff.rfl

/-- Every index of the result is in the block its expert's last point writes. -/
theorem cover (i : S8x256x2048.Idx) : ∃ t : Fin cfg0.N, (cfg0.win 4).flush t = true ∧ i ∈ ((cfg0.win 4).blk t).view.set := by
  have hN : cfg0.N = 256 := N_0
  have hi0 : (i 0).val < 8 := (i 0).isLt
  have hi1 : (i 1).val < 256 := (i 1).isLt
  have hi2 : (i 2).val < 2048 := (i 2).isLt
  refine ⟨⟨32 * (i 0).val + 31, by rw [hN]; omega⟩, (flush0_4 _).mpr (by show (32 * (i 0).val + 31) % 32 = 31; omega), ?_⟩
  rw [mem_blk]
  intro a
  match a with
  | ⟨0, _⟩ =>
    show win0_4.index _ 0 * 1 ≤ (i 0).val ∧ (i 0).val < win0_4.index _ 0 * 1 + 1
    rw [(index_out _).1]
    show (32 * (i 0).val + 31) / 32 * 1 ≤ (i 0).val ∧ (i 0).val < (32 * (i 0).val + 31) / 32 * 1 + 1
    omega
  | ⟨1, _⟩ =>
    show win0_4.index _ 1 * 256 ≤ (i 1).val ∧ (i 1).val < win0_4.index _ 1 * 256 + 256
    rw [(index_out _).2.1]; omega
  | ⟨2, _⟩ =>
    show win0_4.index _ 2 * 2048 ≤ (i 2).val ∧ (i 2).val < win0_4.index _ 2 * 2048 + 2048
    rw [(index_out _).2.2]; omega

/-- THE RESULT ARRAY after the run. -/
theorem final (c : Dev nD) : (dats m 0 c).arrAt 4 cfg0.N = result m c :=
  (dats m 0 c).arrAt_eq_of_cover 4 (result m c) (flushed_eq m c) cover

/-- The run, read: the result array at the grouped SwiGLU function of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Accumulated

end
-- ==== Proof.RefValue.lean ====
/-
  The reference computes the grouped SwiGLU function.

  The reference forms the gate and up projections for all hidden columns at once (two batched products over the model
  columns), applies `g ↦ g · (1 / (1 + exp(−g)))` to the gate, multiplies by the up projection, and contracts the hidden
  axis against `w2` (a batched product over the second axes). Read at an index on the extended reals this is
  `Swiglu.out`: the quotient `1 / (1 + exp(−g))` is the logistic function by definition, and each product is the plain
  sum over its contracted axis.
-/
import proofs.«155143_j41051297415846_1_alg».proof.Proof.Gen.ReferenceIdeal.Read
import proofs.«155143_j41051297415846_1_alg».proof.Proof.Swiglu

noncomputable section

namespace Cert.ReferenceIdeal.RefValue

open Cert.ReferenceIdeal Cert.ReferenceIdeal.Read Idealize.ShloMosaic Idealize.ShloMosaic.ValueIdx

/-- The word `0x3F800000` is the number one. -/
theorem one_word : Ideal.ofBits .f32 0x3F800000#32 = 1 := by
  simp [Ideal.ofBits, Ideal.ieee, -EReal.coe_mul]; norm_num

/-- The reference's spelling of the gate's activation: `g · (1 / (1 + exp(−g)))` is `g · σ(g)`. -/
theorem silu_eq (g : EReal) :
    FloatOps.mulf (F := Ideal) (φ := .f32) g
        (FloatOps.hostDivf (F := Ideal) (φ := .f32) (FloatOps.ofBits (F := Ideal) .f32 0x3F800000#32)
          (FloatOps.addf (F := Ideal) (φ := .f32) (FloatOps.ofBits (F := Ideal) .f32 0x3F800000#32)
            (FloatOps.hostUnary (F := Ideal) (φ := .f32) .exp (FloatOps.hostNegf (F := Ideal) (φ := .f32) g))))
      = g * Ideal.logistic g := by
  rw [Ideal.ofBits_def, one_word]
  rfl

variable (x0 : (⟨S8x256x2048, .f32⟩ : BufTy).Contents (Elt Ideal)) (x1 x2 x3 : (⟨S8x2048x8192, .f32⟩ : BufTy).Contents (Elt Ideal))

/-- The gate projection at hidden column `h` of the row the last product reads. -/
theorem gate_eq (i : S8x256x2048.Idx) (h : Fin 8192) :
    val_main_v0 (F := Ideal) x0 x1 (lidx_main_v4 i h) = Cert.Swiglu.proj x0 x1 (i 0) (i 1) h := by
  rw [val_main_v0_apply]
  unfold Cert.Swiglu.proj
  refine Finset.sum_congr rfl fun k _ => ?_
  rw [show lidx_main_v0 (lidx_main_v4 i h) k = ix3 (i 0) (i 1) k from
        funext fun a => Fin.ext (by match a with | ⟨0, _⟩ => rfl | ⟨1, _⟩ => rfl | ⟨2, _⟩ => rfl),
      show ridx_main_v0 (lidx_main_v4 i h) k = ix3 (i 0) k h from
        funext fun a => Fin.ext (by match a with | ⟨0, _⟩ => rfl | ⟨1, _⟩ => rfl | ⟨2, _⟩ => rfl)]
  rfl

/-- The up projection likewise. -/
theorem up_eq (i : S8x256x2048.Idx) (h : Fin 8192) :
    val_main_v1 (F := Ideal) x0 x3 (lidx_main_v4 i h) = Cert.Swiglu.proj x0 x3 (i 0) (i 1) h := by
  rw [val_main_v1_apply]
  unfold Cert.Swiglu.proj
  refine Finset.sum_congr rfl fun k _ => ?_
  rw [show lidx_main_v1 (lidx_main_v4 i h) k = ix3 (i 0) (i 1) k from
        funext fun a => Fin.ext (by match a with | ⟨0, _⟩ => rfl | ⟨1, _⟩ => rfl | ⟨2, _⟩ => rfl),
      show ridx_main_v1 (lidx_main_v4 i h) k = ix3 (i 0) k h from
        funext fun a => Fin.ext (by match a with | ⟨0, _⟩ => rfl | ⟨1, _⟩ => rfl | ⟨2, _⟩ => rfl)]
  rfl

/-- THE REFERENCE'S RESULT is the grouped SwiGLU function of its arguments. -/
theorem result_eq : val_main_v4 (F := Ideal) x0 x1 x2 x3 = Cert.Swiglu.out x0 x1 x2 x3 := by
  funext i
  rw [val_main_v4_apply]
  unfold Cert.Swiglu.out
  refine Finset.sum_congr rfl fun h _ => ?_
  unfold Cert.Swiglu.term Cert.Swiglu.mid
  rw [val_main_v3_apply, val_main_v2_apply, val_main_call0_v5_apply, val_main_call0_v4_apply, val_main_call0_cst_0_apply,
    val_main_call0_v3_apply, val_main_call0_v2_apply, val_main_call0_cst_apply, val_main_call0_v1_apply,
    val_main_call0_v0_apply, gate_eq, up_eq, silu_eq]
  rw [show ridx_main_v4 i h = ix3 (i 0) (i 2) h from
        funext fun a => Fin.ext (by match a with | ⟨0, _⟩ => rfl | ⟨1, _⟩ => rfl | ⟨2, _⟩ => rfl)]
  rfl

end Cert.ReferenceIdeal.RefValue

end
-- ==== Proof.lean ====
/-
  A grouped SwiGLU feed-forward kernel against its einsum reference, over the extended reals.

  For 8 experts, 256 tokens each, 2048 model columns and 8192 hidden columns, both programs compute
      out(e, t, d) = Σ_h ((g · σ(g)) · u)(e, t, h) · w2(e, d, h),   g = x · w1,  u = x · w3  (products over the model columns),
  σ the logistic function. The kernel walks the hidden axis in 32 tiles of 256 columns, keeps a [256, 2048] accumulator
  per expert — zeroed at the expert's first tile, one tile's share added per grid point — and writes it out after the last
  tile. The reference contracts all 8192 hidden columns at once and spells σ(g) as 1 / (1 + exp(−g)), which is the logistic
  function by definition. The two sides differ only in how the hidden sum is grouped, and a finite sum on the extended
  reals may be regrouped freely; so the finiteness of the inputs is never used.

  The modules: `TileSum` (regrouping 8192 = 32 · 256), `Swiglu` (the function, and its split into tile shares), `TileStep`
  (one grid point's arithmetic at an index), `CaseValues` (what each of the body's three control cases leaves),
  `TileBlocks` (the blocks as entries of the arguments), `Accumulated` (the kernel's result array), `RefValue` (the
  reference's result). The idealization rewrote nothing, so `preserves` is trivial.
-/
import proofs.«155143_j41051297415846_1_alg».proof.Defs
import proofs.«155143_j41051297415846_1_alg».proof.Proof.Gen.Kernel
import proofs.«155143_j41051297415846_1_alg».proof.Proof.Gen.Kernel.Frame
import proofs.«155143_j41051297415846_1_alg».proof.Proof.Gen.KernelIdeal
import proofs.«155143_j41051297415846_1_alg».proof.Proof.Gen.KernelIdeal.Frame
import proofs.«155143_j41051297415846_1_alg».proof.Proof.Gen.KernelIdeal.Value
import proofs.«155143_j41051297415846_1_alg».proof.Proof.Gen.ReferenceIdeal
import proofs.«155143_j41051297415846_1_alg».proof.Proof.Gen.ReferenceIdeal.Run
import proofs.«155143_j41051297415846_1_alg».proof.Proof.Gen.ReferenceIdeal.Read
import proofs.«155143_j41051297415846_1_alg».proof.Proof.Gen.Pre_finite_inputs
import proofs.«155143_j41051297415846_1_alg».proof.Proof.Accumulated
import proofs.«155143_j41051297415846_1_alg».proof.Proof.RefValue
import Idealize.ShloMosaic.Adequacy
import Idealize.ShloMosaic.Init

noncomputable section

namespace Cert.Proof

open Idealize.ShloMosaic Idealize.ShloMosaic.TcCoe Idealize.SL.Sem

/-- The reference runs and leaves its arguments as they were: its run with the result dropped. -/
theorem frame_reference [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- Both idealized programs end with the grouped SwiGLU function of arguments that agree. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Accumulated.result m c, Cert.KernelIdeal.Accumulated.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
